-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S6x2048x2048 : Shape := ⟨3, ![6, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S6x2048x2048 : S_.BroadcastsInDim S6x2048x2048 (![] : Fin 0 → Fin S6x2048x2048.rank)
  reducesTo_S6x2048x2048_S_d0_1_2 : S6x2048x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S6x2048x2048 .f32) (main_arg2 : FVec F S6x2048x2048 .f32) (main_arg3 : FVec F S2048x2048 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S6x2048x2048 .f32 := Host.absf main_arg1
  let main_cst_0 : FVec F S_ .f32 := constant S_ .f32 0x7F800000#32
  let main_v5 : FVec F S6x2048x2048 .f32 := broadcastInDim S6x2048x2048 ![] bcast_S_S6x2048x2048 main_cst_0
  let main_v6 : IVec S6x2048x2048 1 := cmpf .olt main_v4 main_v5
  let main_c_1 : IVec S_ 1 := constantI S_ 1 1#1
  let main_v7 : IVec S_ 1 := (fun x v => Host.reduce IntOp.andi x v reducesTo_S6x2048x2048_S_d0_1_2 h_S_) main_v6 main_c_1
  let main_v8 : IVec S_ 1 := andi main_v3 main_v7
  let main_v9 : FVec F S6x2048x2048 .f32 := Host.absf main_arg2
  let main_cst_2 : FVec F S_ .f32 := constant S_ .f32 0x7F800000#32
  let main_v10 : FVec F S6x2048x2048 .f32 := broadcastInDim S6x2048x2048 ![] bcast_S_S6x2048x2048 main_cst_2
  let main_v11 : IVec S6x2048x2048 1 := cmpf .olt main_v9 main_v10
  let main_c_3 : IVec S_ 1 := constantI S_ 1 1#1
  let main_v12 : IVec S_ 1 := (fun x v => Host.reduce IntOp.andi x v reducesTo_S6x2048x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4x2048x2048 : Shape := ⟨3, ![4, 2048, 2048]⟩
abbrev S6x2048x2048 : Shape := ⟨3, ![6, 2048, 2048]⟩
abbrev S2048x2048 : Shape := ⟨2, ![2048, 2048]⟩
abbrev S2048 : Shape := ⟨1, ![2048]⟩
abbrev S8192x2048 : Shape := ⟨2, ![8192, 2048]⟩
abbrev S512x2048 : Shape := ⟨2, ![512, 2048]⟩
abbrev S6x128x2048 : Shape := ⟨3, ![6, 128, 2048]⟩
abbrev S512x128 : Shape := ⟨2, ![512, 128]⟩
abbrev S1x128x2048 : Shape := ⟨3, ![1, 128, 2048]⟩
abbrev S128x2048 : Shape := ⟨2, ![128, 2048]⟩
abbrev S2048x128 : Shape := ⟨2, ![2048, 128]⟩
abbrev S1x2048 : Shape := ⟨2, ![1, 2048]⟩
abbrev S1x512 : Shape := ⟨2, ![1, 512]⟩
abbrev S512x512 : Shape := ⟨2, ![512, 512]⟩
abbrev S2048x512 : Shape := ⟨2, ![2048, 512]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S6x2048x2048, .f32⟩
  | .hbm, ⟨2, _⟩ => ⟨S6x2048x2048, .f32⟩
  | .hbm, ⟨3, _⟩ => ⟨S2048x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S6x128x2048, .f32⟩
  | .local _ .vmem, ⟨3, _⟩ => ⟨S6x128x2048, .f32⟩
  | .local _ .vmem, ⟨4, _⟩ => ⟨S6x128x2048, .f32⟩
  | .local _ .vmem, ⟨5, _⟩ => ⟨S6x128x2048, .f32⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S6x128x2048_S1x128x2048_0_0_0 : ∀ a, (![0, 0, 0] : Fin 3 → Nat) a + S1x128x2048.size a ≤ S6x128x2048.size a
  h_S1x128x2048 : 0 < S1x128x2048.numel
  shapeCasts_S1x128x2048_S128x2048 : S1x128x2048.ShapeCasts S128x2048
  transposes_S128x2048_p1_0_S2048x128 : S128x2048.Transposes [1, 0] S2048x128
  inb_S6x128x2048_S1x128x2048_1_0_0 : ∀ a, (![1, 0, 0] : Fin 3 → Nat) a + S1x128x2048.size a ≤ S6x128x2048.size a
  inb_S6x128x2048_S1x128x2048_2_0_0 : ∀ a, (![2, 0, 0] : Fin 3 → Nat) a + S1x128x2048.size a ≤ S6x128x2048.size a
  inb_S6x128x2048_S1x128x2048_3_0_0 : ∀ a, (![3, 0, 0] : Fin 3 → Nat) a + S1x128x2048.size a ≤ S6x128x2048.size a
  inb_S6x128x2048_S1x128x2048_4_0_0 : ∀ a, (![4, 0, 0] : Fin 3 → Nat) a + S1x128x2048.size a ≤ S6x128x2048.size a
  inb_S6x128x2048_S1x128x2048_5_0_0 : ∀ a, (![5, 0, 0] : Fin 3 → Nat) a + S1x128x2048.size a ≤ S6x128x2048.size a
  inb_S512x128_S512x128_0_0 : ∀ a, (![0, 0] : Fin 2 → Nat) a + S512x128.size a ≤ S512x128.size a
  h_S512x128 : 0 < S512x128.numel
  shapeCasts_S2048_S1x2048 : S2048.ShapeCasts S1x2048
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S512x2048_S2048x128_S512x128_1_0_0_1_n_n_wf : DotDims.WF S512x2048 S2048x128 S512x128 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x128x2048.size a ≤ S6x2048x2048.size a
  hwx0_1 : ∀ i : grid0.Coords, EltTy.bits .f32 = 32 ∨ (Rect.block (s := S6x2048x2048) S6x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x128x2048.size a ≤ S6x2048x2048.size a
  hwx0_2 : ∀ i : grid0.Coords, EltTy.bits .f32 = 32 ∨ (Rect.block (s := S6x2048x2048) S6x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x2048.size a
  hwx0_3 : ∀ i : grid0.Coords, EltTy.bits .f32 = 32 ∨ (Rect.block (s := S8192x2048) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .f32 = 32 ∨ (Rect.block (s := S2048x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x2048.size a
  hwx1_3 : ∀ i : grid1.Coords, EltTy.bits .f32 = 32 ∨ (Rect.block (s := S8192x2048) S512x512.size (cc1_transform_3 i) (hinb1_3 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S6x2048x2048 : Shape := ⟨3, ![6, 2048, 2048]⟩
abbrev S2048x2048 : Shape := ⟨2, ![2048, 2048]⟩
abbrev S2048 : Shape := ⟨1, ![2048]⟩
abbrev S8192x2048 : Shape := ⟨2, ![8192, 2048]⟩
abbrev S1x2048x2048 : Shape := ⟨3, ![1, 2048, 2048]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S6x2048x2048, .f32⟩
  | .hbm, ⟨2, _⟩ => ⟨S6x2048x2048, .f32⟩
  | .hbm, ⟨3, _⟩ => ⟨S2048x2048, .f32⟩
  | .hbm, ⟨4, _⟩ => ⟨S2048, .f32⟩
  | .hbm, ⟨5, _⟩ => ⟨S8192x2048, .f32⟩
  | .hbm, ⟨6, _⟩ => ⟨S6x2048x2048, .f32⟩
  | .hbm, ⟨7, _⟩ => ⟨S1x2048x2048, .f32⟩
  | .hbm, ⟨8, _⟩ => ⟨S2048x2048, .f32⟩
  | .hbm, ⟨9, _⟩ => ⟨S2048x2048, .f32⟩
  | .hbm, ⟨10, _⟩ => ⟨S8192x2048, .f32⟩
  | .hbm, ⟨11, _⟩ => ⟨S1x2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x2048x2048, .f32⟩
  | .hbm, ⟨18, _⟩ => ⟨S2048x2048, .f32⟩
  | .hbm, ⟨19, _⟩ => ⟨S2048x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048x2048, .f32⟩
  | .hbm, ⟨24, _⟩ => ⟨S2048x2048, .f32⟩
  | .hbm, ⟨25, _⟩ => ⟨S2048x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048x2048, .f32⟩
  | .hbm, ⟨30, _⟩ => ⟨S2048x2048, .f32⟩
  | .hbm, ⟨31, _⟩ => ⟨S2048x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S1x2048x2048, .f32⟩
  | .hbm, ⟨36, _⟩ => ⟨S2048x2048, .f32⟩
  | .hbm, ⟨37, _⟩ => ⟨S2048x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S2048x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]

class Facts₀ : Prop where
  shapeCasts_S4x2048x2048_S8192x2048 : S4x2048x2048.ShapeCasts S8192x2048
  slices_S6x2048x2048_S1x2048x2048_0_0_0 : S6x2048x2048.Slices ![0, 0, 0] S1x2048x2048
  shapeCasts_S1x2048x2048_S2048x2048 : S1x2048x2048.ShapeCasts S2048x2048
  transposes_S2048x2048_S2048x2048_1_0 : S2048x2048.Transposes [1, 0] S2048x2048
  slices_S6x2048x2048_S1x2048x2048_1_0_0 : S6x2048x2048.Slices ![1, 0, 0] S1x2048x2048
  slices_S6x2048x2048_S1x2048x2048_2_0_0 : S6x2048x2048.Slices ![2, 0, 0] S1x2048x2048
  slices_S6x2048x2048_S1x2048x2048_3_0_0 : S6x2048x2048.Slices ![3, 0, 0] S1x2048x2048
  slices_S6x2048x2048_S1x2048x2048_4_0_0 : S6x2048x2048.Slices ![4, 0, 0] S1x2048x2048
  slices_S6x2048x2048_S1x2048x2048_5_0_0 : S6x2048x2048.Slices ![5, 0, 0] S1x2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S4x2048x2048 : S8192x2048.ShapeCasts S4x2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The mathematics both programs compute, over arbitrary extents.

  For a row-major matrix `Z` (rows `n`, columns `d`) and six masked weight matrices `M g ⊙ U g` (rows `k`, columns `d`),
  the degree-`g` product is the row dot product `mm g n k = ∑ d, Z[n,d] · (M[g,k,d] · U[g,k,d])`, the chain is
  `o₀ = mm 0`, `o_g = mm g · o_{g-1} + o_{g-1}` for `g = 1 … 5`, and the projection is
  `x[n,o] = (∑ k, o₅[n,k] · C[o,k]) + b[o]`.
  Every entry of the chain at `(n, k)` reads row `n` of `Z` and row `k` of each weight matrix only, and every entry of the
  projection at `(n, o)` reads row `n` of its left operand and row `o` of `C` only: a tile of the result is the same formula
  on the tiles of the operands (the congruence lemmas below). Only sums and products of extended reals occur, in the same
  order on both sides, so no law of arithmetic is needed.
-/
import Idealize.ShloMosaic.PureOps.Ideal
import Idealize.ShloMosaic.Lib.ValueIdx

noncomputable section

namespace Cert.Spec

open Idealize.ShloMosaic Idealize.ShloMosaic.ValueIdx

/-- A rank-1, rank-2, rank-3 array of extended reals. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- The degree-`g` product at `(n, k)`: row `n` of `Z` against row `k` of the masked weights `M g ⊙ U g`. -/
def mm {N G K D : Nat} (Z : Arr2 N D) (M U : Arr3 G K D) (g : Fin G) (n : Fin N) (k : Fin K) : EReal :=
  ∑ d : Fin D, Z (ix2 n d) * (M (ix3 g k d) * U (ix3 g k d))

/-- One link of the chain: `a · o + o`. -/
def step (a o : EReal) : EReal := a * o + o

/-- The six-link chain at `(n, k)`. -/
def chain {N K D : Nat} (Z : Arr2 N D) (M U : Arr3 6 K D) (n : Fin N) (k : Fin K) : EReal :=
  step (mm Z M U 5 n k) (step (mm Z M U 4 n k) (step (mm Z M U 3 n k) (step (mm Z M U 2 n k)
    (step (mm Z M U 1 n k) (mm Z M U 0 n k)))))

/-- The chain as an array. -/
def chainArr {N K D : Nat} (Z : Arr2 N D) (M U : Arr3 6 K D) : Arr2 N K := fun j => chain Z M U (j 0) (j 1)

/-- The projection at `(n, o)` with the bias given as a one-row matrix. -/
def proj {N K O : Nat} (A : Arr2 N K) (C : Arr2 O K) (b : Arr2 1 O) (n : Fin N) (o : Fin O) : EReal :=
  (∑ k : Fin K, A (ix2 n k) * C (ix2 o k)) + b (ix2 0 o)

/-- The projection as an array. -/
def projArr {N K O : Nat} (A : Arr2 N K) (C : Arr2 O K) (b : Arr2 1 O) : Arr2 N O := fun j => proj A C b (j 0) (j 1)

/-- The chain at `(n, k)` depends on row `n` of `Z` and on row `k` of each weight matrix only. -/
theorem chain_congr {N K D N' K' : Nat} (Z : Arr2 N D) (M U : Arr3 6 K D) (Z' : Arr2 N' D) (M' U' : Arr3 6 K' D)
    (n : Fin N) (k : Fin K) (n' : Fin N') (k' : Fin K')
    (hZ : ∀ d : Fin D, Z (ix2 n d) = Z' (ix2 n' d))
    (hM : ∀ (g : Fin 6) (d : Fin D), M (ix3 g k d) = M' (ix3 g k' d))
    (hU : ∀ (g : Fin 6) (d : Fin D), U (ix3 g k d) = U' (ix3 g k' d)) :
    chain Z M U n k = chain Z' M' U' n' k' := by
  unfold chain mm
  simp only [hZ, hM, hU]

/-- The projection at `(n, o)` depends on row `n` of `A`, row `o` of `C` and entry `o` of the bias only. -/
theorem proj_congr {N K O N' O' : Nat} (A : Arr2 N K) (C : Arr2 O K) (b : Arr2 1 O) (A' : Arr2 N' K) (C' : Arr2 O' K)
    (b' : Arr2 1 O') (n : Fin N) (o : Fin O) (n' : Fin N') (o' : Fin O')
    (hA : ∀ k : Fin K, A (ix2 n k) = A' (ix2 n' k))
    (hC : ∀ k : Fin K, C (ix2 o k) = C' (ix2 o' k))
    (hb : b (ix2 0 o) = b' (ix2 0 o')) :
    proj A C b n o = proj A' C' b' n' o' := by
  unfold proj
  simp only [hA, hC, hb]

/-- The whole computation: the 4 × 2048 batch of rows flattened to 8192 rows, the chain, the projection with the bias as
    a one-row matrix, and the result cut back into the batch. The three reshapes are row-major re-indexings. -/
def result (hz : (⟨3, ![4, 2048, 2048]⟩ : Shape).ShapeCasts ⟨2, ![8192, 2048]⟩)
    (hb : (⟨1, ![2048]⟩ : Shape).ShapeCasts ⟨2, ![1, 2048]⟩)
    (ho : (⟨2, ![8192, 2048]⟩ : Shape).ShapeCasts ⟨3, ![4, 2048, 2048]⟩)
    (z : Arr3 4 2048 2048) (U M : Arr3 6 2048 2048) (C : Arr2 2048 2048) (b : Arr1 2048) : Arr3 4 2048 2048 :=
  shapeCast ⟨3, ![4, 2048, 2048]⟩ (projArr (chainArr (shapeCast ⟨2, ![8192, 2048]⟩ z hz) M U) C (shapeCast ⟨2, ![1, 2048]⟩ b hb)) ho

end Cert.Spec

end
-- ==== Proof.KReg0.lean ====
/-
  Region 0 of the kernel (the six-link masked chain), read as values at the ideal instance.

  A grid point `t = (bi, bj)` of the 16 × 16 grid reads rows `512·bi … 512·bi + 511` of the flattened input `Z` (all 2048
  columns) and rows `128·bj … 128·bj + 127` of each of the six weight and mask matrices, and writes the 512 × 128 tile
  `(bi, bj)` of the output. Its body multiplies mask and weight entry by entry, transposes, and contracts the full column
  axis in one matrix product into a zero accumulator: entry `(r, k)` of the product is `∑ d, Zblk[r,d] · (Mblk[g,k,d] · Ublk[g,k,d])`
  — `Spec.mm` on the blocks. The six products are linked by `a · o + o`: the tile is `Spec.chain` on the blocks, which by
  `Spec.chain_congr` is `Spec.chain` on the whole arrays at the tile's place. The tiles cover the output, so the output array
  after the region is `Spec.chainArr` of the arrays the region found.
-/
import proofs.«139533_j32882269618787_1_alg».proof.Proof.Gen.KernelIdeal.Frame
import proofs.«139533_j32882269618787_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of the body at an index -/

/-- The left operand's row coordinate is the output's row. -/
theorem lhs_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- The left operand's column coordinate is the contracted one. -/
theorem lhs_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
/-- The right operand's row coordinate is the contracted one. -/
theorem rhs_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
/-- The right operand's column coordinate is the output's column. -/
theorem rhs_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product of a 512 × 2048 block with the transpose of a 128 × 2048 block, into zero: entry `(r, k)` is the dot
    product of row `r` of the first with row `k` of the second. -/
theorem matmulT_apply (A : FVec Ideal S512x2048 .bf16) (B : FVec Ideal S128x2048 .bf16) (r : Fin 512) (k : Fin 128) :
    matmul (F := Ideal) dot_S512x2048_S2048x128_S512x128_1_0_0_1_n_n none A (transpose S2048x128 [1, 0] B transposes_S128x2048_p1_0_S2048x128)
        (constant (F := Ideal) S512x128 .f32 0x00000000#32) (ix2 r k)
      = ∑ d : Fin 2048, A (ix2 r d) * B (ix2 k d) := by
  refine (Ideal.matmul_constant_zero_apply dot_S512x2048_S2048x128_S512x128_1_0_0_1_n_n none A _ (ix2 r k)).trans ?_
  rw [← Equiv.sum_comp (ValueIdx.contrEquiv1 dot_S512x2048_S2048x128_S512x128_1_0_0_1_n_n 2048 rfl rfl).symm]
  refine Finset.sum_congr rfl fun d _ => ?_
  have hk := ValueIdx.contrEquiv1_symm_val dot_S512x2048_S2048x128_S512x128_1_0_0_1_n_n 2048 rfl rfl d
  have el : dot_S512x2048_S2048x128_S512x128_1_0_0_1_n_n.lhsIdx (ix2 r k) ((ValueIdx.contrEquiv1 dot_S512x2048_S2048x128_S512x128_1_0_0_1_n_n 2048 rfl rfl).symm d) = ix2 r d := funext fun a => Fin.ext (by
    match a with
    | ⟨0, _⟩ => exact lhs_0 _ _
    | ⟨1, _⟩ => exact (lhs_1 _ _).trans hk)
  rw [el]
  refine congrArg (A (ix2 r d) * ·) ?_
  refine transpose_apply [1, 0] B transposes_S128x2048_p1_0_S2048x128 _ (ix2 k d) (fun b => ?_)
  match b with
  | ⟨0, _⟩ => exact ((rhs_0 (ix2 r k) _).trans hk).symm
  | ⟨1, _⟩ => exact (rhs_1 (ix2 r k) _).symm

/-! ## The blocks the body loads, at an index -/

theorem hz2 : (![0, 0] : Fin 2 → Nat) = fun _ => 0 := funext fun a => by fin_cases a <;> rfl

/-- Slab `g` of a six-slab block, loaded as a one-slab vector, read at `(0, k, d)`: the block at `(g, k, d)`. -/
theorem ld_slab (x : Vec Ideal S6x128x2048 .f32) (g : Nat) (hg : g < 6)
    (inb : ∀ a, (![g, 0, 0] : Fin 3 → Nat) a + S1x128x2048.size a ≤ S6x128x2048.size a) (k : Fin 128) (d : Fin 2048) :
    View.ld x (Rect.unit (s := S6x128x2048) ![g, 0, 0] S1x128x2048.size inb) (ix3 (0 : Fin 1) k d) = x (ix3 (⟨g, hg⟩ : Fin 6) k d) := by
  show x _ = x _
  refine congrArg x (funext fun a => Fin.ext ?_)
  match a with
  | ⟨0, _⟩ => show g + 1 * 0 = g; omega
  | ⟨1, _⟩ => show 0 + 1 * k.val = k.val; omega
  | ⟨2, _⟩ => show 0 + 1 * d.val = d.val; omega

/-- A one-slab vector with its unit axis cast away, read at `(k, d)`: the vector at `(0, k, d)`. -/
theorem dropSlab_apply (v : Vec Ideal S1x128x2048 .f32) (k : Fin 128) (d : Fin 2048) :
    shapeCast S128x2048 v shapeCasts_S1x128x2048_S128x2048 (ix2 k d) = v (ix3 (0 : Fin 1) k d) := by
  refine shapeCast_apply v shapeCasts_S1x128x2048_S128x2048 (ix2 k d) (ix3 (0 : Fin 1) k d) ?_
  rw [Shape.rowMajor_val_three, Shape.rowMajor_val_two]
  show (0 * 128 + k.val) * 2048 + d.val = k.val * 2048 + d.val
  omega

/-- One degree of the body: the z block against slab `g` of mask ⊙ weight, at `(r, k)`. -/
theorem degree_apply (x0 : Vec Ideal S512x2048 .f32) (x1 x2 : Vec Ideal S6x128x2048 .f32) (g : Nat) (hg : g < 6)
    (inb : ∀ a, (![g, 0, 0] : Fin 3 → Nat) a + S1x128x2048.size a ≤ S6x128x2048.size a) (r : Fin 512) (k : Fin 128) :
    matmul (F := Ideal) dot_S512x2048_S2048x128_S512x128_1_0_0_1_n_n none (k0_pay2 (F := Ideal) x0)
        (transpose S2048x128 [1, 0]
          (truncf .bf16 (mulf (shapeCast S128x2048 (View.ld x2 (Rect.unit (s := S6x128x2048) ![g, 0, 0] S1x128x2048.size inb)) shapeCasts_S1x128x2048_S128x2048)
                              (shapeCast S128x2048 (View.ld x1 (Rect.unit (s := S6x128x2048) ![g, 0, 0] S1x128x2048.size inb)) shapeCasts_S1x128x2048_S128x2048)) bitsLt_bf16_f32)
          transposes_S128x2048_p1_0_S2048x128)
        (constant (F := Ideal) S512x128 .f32 0x00000000#32) (ix2 r k)
      = Spec.mm x0 x2 x1 (⟨g, hg⟩ : Fin 6) r k := by
  refine (matmulT_apply _ _ r k).trans ?_
  unfold Spec.mm
  refine Finset.sum_congr rfl fun d _ => ?_
  show (shapeCast S512x2048 x0 shapeCasts_S512x2048_S512x2048) (ix2 r d)
      * (shapeCast S128x2048 (View.ld x2 _) shapeCasts_S1x128x2048_S128x2048 (ix2 k d)
        * shapeCast S128x2048 (View.ld x1 _) shapeCasts_S1x128x2048_S128x2048 (ix2 k d)) = _
  rw [shapeCast_self, dropSlab_apply, dropSlab_apply, ld_slab x2 g hg inb k d, ld_slab x1 g hg inb k d]

/-! ## The body's tile is the chain on the blocks -/

/-- The first half of the body (degrees 0, 1, 2) at `(r, k)`. -/
theorem firstHalf_apply (x0 : Vec Ideal S512x2048 .f32) (x1 x2 : Vec Ideal S6x128x2048 .f32) (r : Fin 512) (k : Fin 128) :
    k0_pay3 (F := Ideal) x0 (View.ld x2 r0_1) (View.ld x1 r0_1) (View.ld x2 r0_2) (View.ld x1 r0_2) (View.ld x2 r0_3) (View.ld x1 r0_3) (ix2 r k)
      = Spec.step (Spec.mm x0 x2 x1 2 r k) (Spec.step (Spec.mm x0 x2 x1 1 r k) (Spec.mm x0 x2 x1 0 r k)) := by
  unfold k0_pay3
  dsimp only
  simp only [ValueIdx.addf_apply, ValueIdx.mulf_apply]
  rw [degree_apply x0 x1 x2 0 (by decide) _ r k, degree_apply x0 x1 x2 1 (by decide) _ r k, degree_apply x0 x1 x2 2 (by decide) _ r k]
  rfl

/-- The second half of the body (degrees 3, 4, 5) at `(r, k)`, over whatever the first half left. -/
theorem secondHalf_apply (x0 : Vec Ideal S512x2048 .f32) (x1 x2 : Vec Ideal S6x128x2048 .f32) (o : FVec Ideal S512x128 .f32) (r : Fin 512) (k : Fin 128) :
    k0_pay1 (F := Ideal) (k0_pay2 (F := Ideal) x0) o (View.ld x2 r0_4) (View.ld x1 r0_4) (View.ld x2 r0_5) (View.ld x1 r0_5) (View.ld x2 r0_6) (View.ld x1 r0_6) (ix2 r k)
      = Spec.step (Spec.mm x0 x2 x1 5 r k) (Spec.step (Spec.mm x0 x2 x1 4 r k) (Spec.step (Spec.mm x0 x2 x1 3 r k) (o (ix2 r k)))) := by
  unfold k0_pay1
  dsimp only
  simp only [ValueIdx.addf_apply, ValueIdx.mulf_apply]
  rw [degree_apply x0 x1 x2 3 (by decide) _ r k, degree_apply x0 x1 x2 4 (by decide) _ r k, degree_apply x0 x1 x2 5 (by decide) _ r k]
  rfl

/-- What the body leaves in the output's buffer, at `(r, k)`: the six-link chain on the three input blocks. -/
theorem tile_apply (x0 : Vec Ideal S512x2048 .f32) (x1 x2 : Vec Ideal S6x128x2048 .f32) (r : Fin 512) (k : Fin 128) :
    out0_3 (F := Ideal) x0 x1 x2 (ix2 r k) = Spec.chain x0 x2 x1 r k := by
  unfold out0_3
  rw [View.canon_unit_zero hz2]
  simp only [View.ld_unit_zero (S := S512x2048) hz2]
  rw [secondHalf_apply, firstHalf_apply]
  rfl

/-! ## From the tiles to the array -/

variable (V : (c : Dev nD) → (b : Ref sig .tc) → Buf (Elt Ideal) ((c : Thread nD τ).loc b))

/-- The printed index maps, decided over the grid: the z window moves with the output's row block and starts at column
    0; the weight and mask windows move with the output's column block and start at slab 0, column 0. -/
theorem idx_facts : ∀ t : Fin cfg0.N, win0_0.index t (0 : Fin 2) = win0_3.index t (0 : Fin 2)
    ∧ win0_0.index t (1 : Fin 2) = 0
    ∧ win0_1.index t (0 : Fin 3) = 0
    ∧ win0_1.index t (1 : Fin 3) = win0_3.index t (1 : Fin 2)
    ∧ win0_1.index t (2 : Fin 3) = 0
    ∧ win0_2.index t (0 : Fin 3) = 0
    ∧ win0_2.index t (1 : Fin 3) = win0_3.index t (1 : Fin 2)
    ∧ win0_2.index t (2 : Fin 3) = 0 :=
  (by decide +kernel : ∀ t : Fin grid0.N, _)

/-- Every tile of the 16 × 16 tiling is some point's. -/
theorem idx_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-- The region's output array as one function of the arrays it finds: the chain of the flattened input against the six
    masked weight matrices. -/
abbrev outArr (c : Dev nD) : Buf (Elt Ideal) ((c : Thread nD τ).loc main_v1) :=
  Spec.chainArr (V c main_v0) (V c main_arg2) (V c main_arg1)

/-- What point `t` writes back is tile `t` of `outArr`. -/
theorem flushed_eq (c : Dev nD) (t : Fin cfg0.N) :
    (dat0 V c).flushed 3 t = ((cfg0.win 3).blk t).view.read (Elt Ideal) (outArr V c) := by
  show (cfg0.win 3).cut (grid0.coords t) ((dat0 V c).after 3 t) = _
  rw [after0_3]
  obtain ⟨e00, e01, e10, e11, e12, e20, e21, e22⟩ := idx_facts t
  funext y
  obtain ⟨r, k, rfl⟩ : ∃ (r : Fin 512) (k : Fin 128), y = ix2 r k := ⟨y 0, y 1, eq_ix2 y⟩
  refine (tile_apply (iblk0 V c 0 t) (iblk0 V c 1 t) (iblk0 V c 2 t) r k).trans ?_
  show _ = Spec.chain (V c main_v0) (V c main_arg2) (V c main_arg1)
    ((((cfg0.win 3).blk t).view.emb (ix2 r k)) 0) ((((cfg0.win 3).blk t).view.emb (ix2 r k)) 1)
  refine Spec.chain_congr _ _ _ _ _ _ r k _ _ (fun d => ?_) (fun g d => ?_) (fun g d => ?_)
  · show V c main_v0 (((cfg0.win 0).blk t).view.emb (ix2 r d)) = V c main_v0 _
    refine congrArg (V c main_v0) (funext fun a => Fin.ext ?_)
    match a with
    | ⟨0, _⟩ => show win0_0.index t (0 : Fin 2) * 512 + 1 * r.val = win0_3.index t (0 : Fin 2) * 512 + 1 * r.val; rw [e00]
    | ⟨1, _⟩ => show win0_0.index t (1 : Fin 2) * 2048 + 1 * d.val = d.val; rw [e01]; omega
  · show V c main_arg2 (((cfg0.win 2).blk t).view.emb (ix3 g k d)) = V c main_arg2 _
    refine congrArg (V c main_arg2) (funext fun a => Fin.ext ?_)
    match a with
    | ⟨0, _⟩ => show win0_2.index t (0 : Fin 3) * 6 + 1 * g.val = g.val; rw [e20]; omega
    | ⟨1, _⟩ => show win0_2.index t (1 : Fin 3) * 128 + 1 * k.val = win0_3.index t (1 : Fin 2) * 128 + 1 * k.val; rw [e21]
    | ⟨2, _⟩ => show win0_2.index t (2 : Fin 3) * 2048 + 1 * d.val = d.val; rw [e22]; omega
  · show V c main_arg1 (((cfg0.win 1).blk t).view.emb (ix3 g k d)) = V c main_arg1 _
    refine congrArg (V c main_arg1) (funext fun a => Fin.ext ?_)
    match a with
    | ⟨0, _⟩ => show win0_1.index t (0 : Fin 3) * 6 + 1 * g.val = g.val; rw [e10]; omega
    | ⟨1, _⟩ => show win0_1.index t (1 : Fin 3) * 128 + 1 * k.val = win0_3.index t (1 : Fin 2) * 128 + 1 * k.val; rw [e11]
    | ⟨2, _⟩ => show win0_1.index t (2 : Fin 3) * 2048 + 1 * d.val = d.val; rw [e12]; omega

/-- An index of the output array is in point `t`'s tile iff each coordinate is in the tile's range on its axis. -/
theorem mem_blk (t : Fin cfg0.N) (i : S8192x2048.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v1).slice (win0_3.rect t)).set ↔ _
  rw [View.set_slice_whole, Rect.mem_set_unit]
  exact Iff.rfl

/-- The tiles cover the output array: entry `(n, k)` lies in tile `(n / 512, k / 128)`. -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := idx_onto ⟨(i 0).val / 512, by omega⟩ ⟨(i 1).val / 128, by omega⟩
  have q0 : win0_3.index t (0 : Fin 2) = (i 0).val / 512 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- The output array after the region: the chain of the arrays the region found. -/
theorem final (c : Dev nD) : (dat0 V c).arrAt 3 cfg0.N = outArr V c :=
  (dat0 V c).arrAt_eq_of_cover 3 (outArr V c) (fun t _ => flushed_eq V c t) cover

end Cert.KernelIdeal.Reg0

end
-- ==== Proof.KReg1.lean ====
/-
  Region 1 of the kernel (the projection), read as values at the ideal instance.

  A grid point `t = (bi, bj)` of the 16 × 4 grid reads rows `512·bi … 512·bi + 511` of the chain's output `A` (all 2048
  columns), rows `512·bj … 512·bj + 511` of the projection matrix `C` and entries `512·bj … 512·bj + 511` of the one-row
  bias, and writes the 512 × 512 tile `(bi, bj)` of the result. Its body contracts the full column axis in one matrix
  product with the transposed `C` block into a zero accumulator and adds the bias row to every row: entry `(r, o)` is
  `(∑ k, Ablk[r,k] · Cblk[o,k]) + bblk[0,o]` — `Spec.proj` on the blocks, which by `Spec.proj_congr` is `Spec.proj` on the
  whole arrays at the tile's place. The tiles cover the result, so the result array after the region is `Spec.projArr` of
  the arrays the region found.
-/
import proofs.«139533_j32882269618787_1_alg».proof.Proof.Gen.KernelIdeal.Frame
import proofs.«139533_j32882269618787_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of the body at an index -/

/-- The left operand's row coordinate is the output's row. -/
theorem lhs_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- The left operand's column coordinate is the contracted one. -/
theorem lhs_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- The right operand's row coordinate is the contracted one. -/
theorem rhs_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- The right operand's column coordinate is the output's column. -/
theorem rhs_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The product of a 512 × 2048 block with the transpose of another 512 × 2048 block, into zero: entry `(r, o)` is the
    dot product of row `r` of the first with row `o` of the second. -/
theorem matmulT_apply (A : FVec Ideal S512x2048 .bf16) (B : FVec Ideal S512x2048 .bf16) (r : Fin 512) (o : Fin 512) :
    matmul (F := Ideal) dot_S512x2048_S2048x512_S512x512_1_0_0_1_n_n none A (transpose S2048x512 [1, 0] B transposes_S512x2048_p1_0_S2048x512)
        (constant (F := Ideal) S512x512 .f32 0x00000000#32) (ix2 r o)
      = ∑ k : Fin 2048, A (ix2 r k) * B (ix2 o k) := by
  refine (Ideal.matmul_constant_zero_apply dot_S512x2048_S2048x512_S512x512_1_0_0_1_n_n none A _ (ix2 r o)).trans ?_
  rw [← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 r o) ((ValueIdx.contrEquiv1 dot_S512x2048_S2048x512_S512x512_1_0_0_1_n_n 2048 rfl rfl).symm k) = ix2 r k := funext fun a => Fin.ext (by
    match a with
    | ⟨0, _⟩ => exact lhs_0 _ _
    | ⟨1, _⟩ => exact (lhs_1 _ _).trans hk)
  rw [el]
  refine congrArg (A (ix2 r k) * ·) ?_
  refine transpose_apply [1, 0] B transposes_S512x2048_p1_0_S2048x512 _ (ix2 o k) (fun b => ?_)
  match b with
  | ⟨0, _⟩ => exact ((rhs_0 (ix2 r o) _).trans hk).symm
  | ⟨1, _⟩ => exact (rhs_1 (ix2 r o) _).symm

/-! ## The body's tile is the projection on the blocks -/

theorem hz2 : (![0, 0] : Fin 2 → Nat) = fun _ => 0 := funext fun a => by fin_cases a <;> rfl

/-- What the body leaves in the result's buffer, at `(r, o)`: the projection on the three input blocks. -/
theorem tile_apply (x0 x1 : Vec Ideal S512x2048 .f32) (x2 : Vec Ideal S1x512 .f32) (r : Fin 512) (o : Fin 512) :
    out1_3 (F := Ideal) x0 x1 x2 (ix2 r o) = Spec.proj x0 x1 x2 r o := by
  unfold out1_3
  rw [View.canon_unit_zero hz2]
  simp only [View.ld_unit_zero (S := S512x2048) hz2, View.ld_unit_zero (S := S1x512) hz2]
  unfold k1_pay1
  dsimp only
  simp only [ValueIdx.addf_apply]
  rw [matmulT_apply, broadcastTo_1b_ab_apply]
  simp only [shapeCast_self]
  rfl

/-! ## From the tiles to the array -/

variable (V : (c : Dev nD) → (b : Ref sig .tc) → Buf (Elt Ideal) ((c : Thread nD τ).loc b))

/-- The printed index maps, decided over the grid: the left operand's window moves with the result's row block and
    starts at column 0; the projection matrix's window moves with the result's column block and starts at column 0; the
    bias window is row 0 at the result's column block. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2) :=
  (by decide +kernel : ∀ t : Fin grid1.N, _)

/-- Every tile of the 16 × 4 tiling is some point's. -/
theorem idx_onto : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

/-- The region's result array as one function of the arrays it finds. -/
abbrev outArr (c : Dev nD) : Buf (Elt Ideal) ((c : Thread nD τ).loc main_v3) :=
  Spec.projArr (V c main_v1) (V c main_arg3) (V c main_v2)

/-- What point `t` writes back is tile `t` of `outArr`. -/
theorem flushed_eq (c : Dev nD) (t : Fin cfg1.N) :
    (dat1 V c).flushed 3 t = ((cfg1.win 3).blk t).view.read (Elt Ideal) (outArr V c) := by
  show (cfg1.win 3).cut (grid1.coords t) ((dat1 V c).after 3 t) = _
  rw [after1_3]
  obtain ⟨e00, e01, e10, e11, e20, e21⟩ := idx_facts t
  funext y
  obtain ⟨r, o, rfl⟩ : ∃ (r : Fin 512) (o : Fin 512), y = ix2 r o := ⟨y 0, y 1, eq_ix2 y⟩
  refine (tile_apply (iblk1 V c 0 t) (iblk1 V c 1 t) (iblk1 V c 2 t) r o).trans ?_
  show _ = Spec.proj (V c main_v1) (V c main_arg3) (V c main_v2)
    ((((cfg1.win 3).blk t).view.emb (ix2 r o)) 0) ((((cfg1.win 3).blk t).view.emb (ix2 r o)) 1)
  refine Spec.proj_congr _ _ _ _ _ _ r o _ _ (fun k => ?_) (fun k => ?_) ?_
  · show V c main_v1 (((cfg1.win 0).blk t).view.emb (ix2 r k)) = V c main_v1 _
    refine congrArg (V c main_v1) (funext fun a => Fin.ext ?_)
    match a with
    | ⟨0, _⟩ => show win1_0.index t (0 : Fin 2) * 512 + 1 * r.val = win1_3.index t (0 : Fin 2) * 512 + 1 * r.val; rw [e00]
    | ⟨1, _⟩ => show win1_0.index t (1 : Fin 2) * 2048 + 1 * k.val = k.val; rw [e01]; omega
  · show V c main_arg3 (((cfg1.win 1).blk t).view.emb (ix2 o k)) = V c main_arg3 _
    refine congrArg (V c main_arg3) (funext fun a => Fin.ext ?_)
    match a with
    | ⟨0, _⟩ => show win1_1.index t (0 : Fin 2) * 512 + 1 * o.val = win1_3.index t (1 : Fin 2) * 512 + 1 * o.val; rw [e10]
    | ⟨1, _⟩ => show win1_1.index t (1 : Fin 2) * 2048 + 1 * k.val = k.val; rw [e11]; omega
  · show V c main_v2 (((cfg1.win 2).blk t).view.emb (ix2 (0 : Fin 1) o)) = V c main_v2 _
    refine congrArg (V c main_v2) (funext fun a => Fin.ext ?_)
    match a with
    | ⟨0, _⟩ => show win1_2.index t (0 : Fin 2) * 1 + 1 * 0 = 0; rw [e20]
    | ⟨1, _⟩ => show win1_2.index t (1 : Fin 2) * 512 + 1 * o.val = win1_3.index t (1 : Fin 2) * 512 + 1 * o.val; rw [e21]

/-- An index of the result array is in point `t`'s tile iff each coordinate is in the tile's range on its axis. -/
theorem mem_blk (t : Fin cfg1.N) (i : S8192x2048.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- The tiles cover the result array: entry `(n, o)` lies in tile `(n / 512, o / 512)`. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- The result array after the region: the projection of the arrays the region found. -/
theorem final (c : Dev nD) : (dat1 V c).arrAt 3 cfg1.N = outArr V c :=
  (dat1 V c).arrAt_eq_of_cover 3 (outArr V c) (fun t _ => flushed_eq V c t) cover

end Cert.KernelIdeal.Reg1

end
-- ==== Proof.KFold.lean ====
/-
  The buffer contents folded through @main, read as values at the ideal instance.

  @main reshapes the batch of rows to 8192 rows, runs region 0 (the chain) on it and the weight and mask arrays, reshapes the
  bias to a one-row matrix, runs region 1 (the projection) on the chain's output, the projection matrix and that row, and
  reshapes the result back into the batch. No stretch of reshapes and no region writes an argument, so each region finds
  the arguments as launched; region 1 finds the chain's output as region 0 left it. Composing the two regions' values with
  the three reshapes, the result buffer ends at `Spec.result` of the arguments.
-/
import proofs.«139533_j32882269618787_1_alg».proof.Proof.KReg0
import proofs.«139533_j32882269618787_1_alg».proof.Proof.KReg1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What region 0 finds -/

/-- Region 0 finds the batch of rows flattened. -/
theorem V1_main_v0 (c : Dev nD) :
    V1 m ρ c main_v0 = shapeCast S8192x2048 (m ((c : Thread nD τ).loc main_arg0)) shapeCasts_S4x2048x2048_S8192x2048 := by
  show StableHlo.after hostOps0 (W0 m ρ c) (Proc.devRef .tc main_v0) = _
  after_results
  rfl

/-- Region 0 finds the weights as launched. -/
theorem V1_main_arg1 (c : Dev nD) : V1 m ρ c main_arg1 = m ((c : Thread nD τ).loc main_arg1) := by
  show StableHlo.after hostOps0 (W0 m ρ c) (Proc.devRef .tc main_arg1) = _
  after_results

/-- Region 0 finds the masks as launched. -/
theorem V1_main_arg2 (c : Dev nD) : V1 m ρ c main_arg2 = m ((c : Thread nD τ).loc main_arg2) := by
  show StableHlo.after hostOps0 (W0 m ρ c) (Proc.devRef .tc main_arg2) = _
  after_results

/-! ## What region 1 finds -/

/-- Region 1 finds the chain's output as region 0 left it. -/
theorem V3_main_v1 (c : Dev nD) : V3 m ρ c main_v1 = Reg0.outArr (V1 m ρ) c := by
  show StableHlo.after hostOps1 (W2 m ρ c) (Proc.devRef .tc main_v1) = _
  after_results
  exact (W2_arr m ρ c 3).trans (Reg0.final (V1 m ρ) c)

/-- Region 1 finds the projection matrix as launched. -/
theorem V3_main_arg3 (c : Dev nD) : V3 m ρ c main_arg3 = m ((c : Thread nD τ).loc main_arg3) := by
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results

/-- Region 1 finds the bias as a one-row matrix. -/
theorem V3_main_v2 (c : Dev nD) :
    V3 m ρ c main_v2 = shapeCast S1x2048 (m ((c : Thread nD τ).loc main_arg4)) shapeCasts_S2048_S1x2048 := by
  show StableHlo.after hostOps1 (W2 m ρ c) (Proc.devRef .tc main_v2) = _
  after_results
  have e : W2 m ρ c (Proc.devRef .tc main_arg4) = m ((c : Thread nD τ).loc main_arg4) := by
    refine (W2_of_ne m ρ c main_arg4 (by decide)).trans ?_
    show StableHlo.after hostOps0 (W0 m ρ c) (Proc.devRef .tc main_arg4) = _
    after_results
  rw [e]
  rfl

/-! ## The result buffer after the run -/

/-- The result buffer after the run is `Spec.result` of the arguments. -/
theorem W5_main_v4 (c : Dev nD) :
    W5 m ρ c (Proc.devRef .tc main_v4)
      = Spec.result shapeCasts_S4x2048x2048_S8192x2048 shapeCasts_S2048_S1x2048 shapeCasts_S8192x2048_S4x2048x2048
          (m ((c : Thread nD τ).loc main_arg0)) (m ((c : Thread nD τ).loc main_arg1)) (m ((c : Thread nD τ).loc main_arg2))
          (m ((c : Thread nD τ).loc main_arg3)) (m ((c : Thread nD τ).loc main_arg4)) := by
  show StableHlo.after hostOps2 (W4 m ρ c) (Proc.devRef .tc main_v4) = _
  after_results
  have e : W4 m ρ c (Proc.devRef .tc main_v3) = Reg1.outArr (V3 m ρ) c := (W4_arr m ρ c 3).trans (Reg1.final (V3 m ρ) c)
  rw [e]
  unfold Reg1.outArr Spec.result
  rw [V3_main_v1, V3_main_arg3, V3_main_v2]
  unfold Reg0.outArr
  rw [V1_main_v0, V1_main_arg1, V1_main_arg2]
  rfl

end Cert.KernelIdeal.Fold

end
-- ==== Proof.RefValue.lean ====
/-
  The reference, read as values at the ideal instance: its result is `Spec.result` of the arguments.

  The reference multiplies masks and weights entry by entry once, then for each degree takes slab `g`, drops the unit
  axis, transposes and contracts with the flattened input: entry `(n, k)` of that product is `∑ d, Z[n,d] · (M[g,k,d] · U[g,k,d])`
  — `Spec.mm`. It links the six products by `a · o + o`, contracts the result with the transposed projection matrix, adds
  the bias broadcast over the rows, and cuts the rows back into the batch.
-/
import proofs.«139533_j32882269618787_1_alg».proof.Proof.Gen.ReferenceIdeal.Run
import proofs.«139533_j32882269618787_1_alg».proof.Proof.Gen.ReferenceIdeal.Read
import proofs.«139533_j32882269618787_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The host's contraction of an 8192 × 2048 matrix with the transpose of a 2048 × 2048 matrix: entry `(n, k)` is the dot
    product of row `n` of the first with row `k` of the second. -/
theorem dotT_apply (A : FVec Ideal S8192x2048 .f32) (B : FVec Ideal S2048x2048 .f32) (n : Fin 8192) (k : Fin 2048) :
    Host.dotGeneral (F := Ideal) dot_S8192x2048_S2048x2048_S8192x2048_1_0_0_1_n_n none A (transpose S2048x2048 [1, 0] B transposes_S2048x2048_S2048x2048_1_0) (ix2 n k)
      = ∑ d : Fin 2048, A (ix2 n d) * B (ix2 k d) := by
  simp only [Host.dotGeneral]
  refine (Ideal.dotGeneral_apply dot_S8192x2048_S2048x2048_S8192x2048_1_0_0_1_n_n none _ A _ (ix2 n k)).trans ?_
  rw [← Equiv.sum_comp (ValueIdx.contrEquiv1 dot_S8192x2048_S2048x2048_S8192x2048_1_0_0_1_n_n 2048 rfl rfl).symm]
  refine Finset.sum_congr rfl fun d _ => ?_
  have hk := ValueIdx.contrEquiv1_symm_val dot_S8192x2048_S2048x2048_S8192x2048_1_0_0_1_n_n 2048 rfl rfl d
  have el : dot_S8192x2048_S2048x2048_S8192x2048_1_0_0_1_n_n.lhsIdx (ix2 n k) ((ValueIdx.contrEquiv1 dot_S8192x2048_S2048x2048_S8192x2048_1_0_0_1_n_n 2048 rfl rfl).symm d) = ix2 n d := funext fun a => Fin.ext (by
    match a with
    | ⟨0, _⟩ => exact lhs_main_v5_0 _ _
    | ⟨1, _⟩ => exact (lhs_main_v5_1 _ _).trans hk)
  rw [el]
  refine congrArg (A (ix2 n d) * ·) ?_
  refine transpose_apply [1, 0] B transposes_S2048x2048_S2048x2048_1_0 _ (ix2 k d) (fun b => ?_)
  match b with
  | ⟨0, _⟩ => exact ((rhs_main_v5_0 (ix2 n k) _).trans hk).symm
  | ⟨1, _⟩ => exact (rhs_main_v5_1 (ix2 n k) _).symm

/-- Slab `g` of a six-slab array with its unit axis dropped, read at `(k, d)`: the array at `(g, k, d)`. -/
theorem slab_apply (W : FVec Ideal S6x2048x2048 .f32) (g : Nat) (hg : g < 6)
    (hs : S6x2048x2048.Slices ![g, 0, 0] S1x2048x2048) (k d : Fin 2048) :
    shapeCast S2048x2048 (extractStridedSlice S1x2048x2048 ![g, 0, 0] W hs) shapeCasts_S1x2048x2048_S2048x2048 (ix2 k d)
      = W (ix3 (⟨g, hg⟩ : Fin 6) k d) := by
  refine (shapeCast_1ab_ab_apply _ shapeCasts_S1x2048x2048_S2048x2048 k d).trans ?_
  refine extractStridedSlice_apply ![g, 0, 0] W hs (ix3 (0 : Fin 1) k d) (ix3 (⟨g, hg⟩ : Fin 6) k d) (fun a => ?_)
  match a with
  | ⟨0, _⟩ => show g = g + 0; omega
  | ⟨1, _⟩ => show k.val = 0 + k.val; omega
  | ⟨2, _⟩ => show d.val = 0 + d.val; omega

/-- One degree of the reference: the flattened input against slab `g` of mask ⊙ weight, at `(n, k)`. -/
theorem degree_apply (Z : FVec Ideal S8192x2048 .f32) (x1 x2 : FVec Ideal S6x2048x2048 .f32) (g : Nat) (hg : g < 6)
    (hs : S6x2048x2048.Slices ![g, 0, 0] S1x2048x2048) (n : Fin 8192) (k : Fin 2048) :
    Host.dotGeneral (F := Ideal) dot_S8192x2048_S2048x2048_S8192x2048_1_0_0_1_n_n none Z
        (transpose S2048x2048 [1, 0]
          (shapeCast S2048x2048 (extractStridedSlice S1x2048x2048 ![g, 0, 0] (mulf x2 x1) hs) shapeCasts_S1x2048x2048_S2048x2048)
          transposes_S2048x2048_S2048x2048_1_0) (ix2 n k)
      = Spec.mm Z x2 x1 (⟨g, hg⟩ : Fin 6) n k := by
  refine (dotT_apply Z _ n k).trans ?_
  unfold Spec.mm
  refine Finset.sum_congr rfl fun d _ => ?_
  rw [slab_apply (mulf x2 x1) g hg hs k d]
  rfl

variable (x0 : (⟨S4x2048x2048, .f32⟩ : BufTy).Contents (Elt Ideal)) (x1 x2 : (⟨S6x2048x2048, .f32⟩ : BufTy).Contents (Elt Ideal))
  (x3 : (⟨S2048x2048, .f32⟩ : BufTy).Contents (Elt Ideal)) (x4 : (⟨S2048, .f32⟩ : BufTy).Contents (Elt Ideal))

/-- The six products are the six degrees of `Spec.mm` on the flattened input. -/
theorem deg0 (n : Fin 8192) (k : Fin 2048) : val_main_v5 (F := Ideal) x0 x1 x2 (ix2 n k) = Spec.mm (val_main_v0 (F := Ideal) x0) x2 x1 0 n k :=
  degree_apply (val_main_v0 (F := Ideal) x0) x1 x2 0 (by decide) slices_S6x2048x2048_S1x2048x2048_0_0_0 n k
theorem deg1 (n : Fin 8192) (k : Fin 2048) : val_main_v9 (F := Ideal) x0 x1 x2 (ix2 n k) = Spec.mm (val_main_v0 (F := Ideal) x0) x2 x1 1 n k :=
  degree_apply (val_main_v0 (F := Ideal) x0) x1 x2 1 (by decide) slices_S6x2048x2048_S1x2048x2048_1_0_0 n k
theorem deg2 (n : Fin 8192) (k : Fin 2048) : val_main_v15 (F := Ideal) x0 x1 x2 (ix2 n k) = Spec.mm (val_main_v0 (F := Ideal) x0) x2 x1 2 n k :=
  degree_apply (val_main_v0 (F := Ideal) x0) x1 x2 2 (by decide) slices_S6x2048x2048_S1x2048x2048_2_0_0 n k
theorem deg3 (n : Fin 8192) (k : Fin 2048) : val_main_v21 (F := Ideal) x0 x1 x2 (ix2 n k) = Spec.mm (val_main_v0 (F := Ideal) x0) x2 x1 3 n k :=
  degree_apply (val_main_v0 (F := Ideal) x0) x1 x2 3 (by decide) slices_S6x2048x2048_S1x2048x2048_3_0_0 n k
theorem deg4 (n : Fin 8192) (k : Fin 2048) : val_main_v27 (F := Ideal) x0 x1 x2 (ix2 n k) = Spec.mm (val_main_v0 (F := Ideal) x0) x2 x1 4 n k :=
  degree_apply (val_main_v0 (F := Ideal) x0) x1 x2 4 (by decide) slices_S6x2048x2048_S1x2048x2048_4_0_0 n k
theorem deg5 (n : Fin 8192) (k : Fin 2048) : val_main_v33 (F := Ideal) x0 x1 x2 (ix2 n k) = Spec.mm (val_main_v0 (F := Ideal) x0) x2 x1 5 n k :=
  degree_apply (val_main_v0 (F := Ideal) x0) x1 x2 5 (by decide) slices_S6x2048x2048_S1x2048x2048_5_0_0 n k

/-- The reference's chain of products is `Spec.chain` on the flattened input. -/
theorem chain_apply (n : Fin 8192) (k : Fin 2048) :
    val_main_v35 (F := Ideal) x0 x1 x2 (ix2 n k) = Spec.chain (val_main_v0 (F := Ideal) x0) x2 x1 n k := by
  unfold Spec.chain Spec.step
  rw [← deg0 x0 x1 x2 n k, ← deg1 x0 x1 x2 n k, ← deg2 x0 x1 x2 n k, ← deg3 x0 x1 x2 n k, ← deg4 x0 x1 x2 n k, ← deg5 x0 x1 x2 n k]
  rfl

/-- The reference's flat result is `Spec.projArr` of the chain, the projection matrix and the bias as a one-row matrix. -/
theorem flat_eq (hb : S2048.ShapeCasts S1x2048) :
    val_main_v40 (F := Ideal) x0 x1 x2 x3 x4
      = Spec.projArr (Spec.chainArr (val_main_v0 (F := Ideal) x0) x2 x1) x3 (shapeCast S1x2048 x4 hb) := by
  funext j
  obtain ⟨n, o, rfl⟩ : ∃ (n : Fin 8192) (o : Fin 2048), j = ix2 n o := ⟨j 0, j 1, eq_ix2 j⟩
  show val_main_v37 (F := Ideal) x0 x1 x2 x3 (ix2 n o) + val_main_v39 (F := Ideal) x4 (ix2 n o) = Spec.proj _ _ _ n o
  unfold Spec.proj
  congr 1
  · refine (dotT_apply (val_main_v35 (F := Ideal) x0 x1 x2) x3 n o).trans ?_
    refine Finset.sum_congr rfl fun k _ => ?_
    rw [chain_apply x0 x1 x2 n k]
    rfl
  · rw [val_main_v39_apply, val_main_v38_apply, shapeCast_a_1a_apply]
    exact congrArg x4 (funext fun a => match a with | ⟨0, _⟩ => rfl)

/-- The reference's result is `Spec.result` of the arguments. -/
theorem result_eq (hz : S4x2048x2048.ShapeCasts S8192x2048) (hb : S2048.ShapeCasts S1x2048) (ho : S8192x2048.ShapeCasts S4x2048x2048) :
    val_main_v41 (F := Ideal) x0 x1 x2 x3 x4 = Spec.result hz hb ho x0 x1 x2 x3 x4 := by
  unfold val_main_v41 Spec.result
  rw [flat_eq x0 x1 x2 x3 x4 hb]
  rfl

end Cert.ReferenceIdeal.RefValue

end
-- ==== Proof.lean ====
/-
  The kernel against its reference, over the extended reals.

  Both programs compute, from a batch `z` of 4 × 2048 rows of 2048 entries, six weight matrices `U g` and masks `M g`
  (2048 × 2048 each), a projection matrix `C` and a bias `b`:
    the flattened rows `Z` (8192 × 2048);
    the products `mm g [n,k] = ∑ d, Z[n,d] · (M[g,k,d] · U[g,k,d])` for `g = 0 … 5`;
    the chain `o₀ = mm 0`, `o_g = mm g · o_{g-1} + o_{g-1}`;
    the projection `x[n,o] = (∑ k, o₅[n,k] · C[o,k]) + b[o]`, cut back into the batch
  (`Spec.result`, Proof/Spec.lean). The reference does it on whole arrays (Proof/RefValue.lean). The kernel does it in two
  tiled regions: region 0 writes the chain tile by tile, each tile from a 512-row block of `Z` and a 128-row block of every
  weight and mask matrix (Proof/KReg0.lean); region 1 writes the projection tile by tile, each tile from a 512-row block of
  the chain, a 512-row block of `C` and 512 entries of the bias (Proof/KReg1.lean). Each region contracts a whole row in one
  matrix product, so a tile of the result is the same formula on the blocks, and the tiles cover the arrays; three
  reshapes join the regions (Proof/KFold.lean). The sums and products occur in the same order on both sides, narrowing to
  bf16 is the identity on the extended reals, and nothing else differs: the two results are one function of the
  arguments, and no finiteness of the inputs is used.
  The three programs run to the end with their arguments unchanged (the frames); the idealization rewrote nothing.
-/
import proofs.«139533_j32882269618787_1_alg».proof.Defs
import proofs.«139533_j32882269618787_1_alg».proof.Proof.Gen.Kernel
import proofs.«139533_j32882269618787_1_alg».proof.Proof.Gen.Kernel.Skeleton
import proofs.«139533_j32882269618787_1_alg».proof.Proof.Gen.Kernel.Launch
import proofs.«139533_j32882269618787_1_alg».proof.Proof.Gen.Kernel.Points
import proofs.«139533_j32882269618787_1_alg».proof.Proof.Gen.Kernel.Frame
import proofs.«139533_j32882269618787_1_alg».proof.Proof.Gen.KernelIdeal
import proofs.«139533_j32882269618787_1_alg».proof.Proof.Gen.KernelIdeal.Skeleton
import proofs.«139533_j32882269618787_1_alg».proof.Proof.Gen.KernelIdeal.Launch
import proofs.«139533_j32882269618787_1_alg».proof.Proof.Gen.KernelIdeal.Points
import proofs.«139533_j32882269618787_1_alg».proof.Proof.Gen.KernelIdeal.Frame
import proofs.«139533_j32882269618787_1_alg».proof.Proof.Gen.ReferenceIdeal
import proofs.«139533_j32882269618787_1_alg».proof.Proof.Gen.ReferenceIdeal.Run
import proofs.«139533_j32882269618787_1_alg».proof.Proof.Gen.ReferenceIdeal.Read
import proofs.«139533_j32882269618787_1_alg».proof.Proof.Gen.Pre_finite_inputs
import proofs.«139533_j32882269618787_1_alg».proof.Proof.KRun
import proofs.«139533_j32882269618787_1_alg».proof.Proof.KFold
import proofs.«139533_j32882269618787_1_alg».proof.Proof.RefValue
import Idealize.ShloMosaic.Adequacy
import Idealize.ShloMosaic.Init

noncomputable section

namespace Cert.Proof

open Idealize.ShloMosaic Idealize.SL.Sem

/-- The word-level kernel runs to the end, nothing faulting, its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result at `Spec.result` of the
    arguments: the kernel by its two regions' values folded through @main, the reference by its stages. -/
theorem algebraic : Cert.algebraic_KernelIdeal_ReferenceIdeal := by
  intro m ρ m' ρ' _ hagree
  refine ⟨fun c => Cert.Spec.result Cert.KernelIdeal.Gen.shapeCasts_S4x2048x2048_S8192x2048 Cert.KernelIdeal.Gen.shapeCasts_S2048_S1x2048
      Cert.KernelIdeal.Gen.shapeCasts_S8192x2048_S4x2048x2048
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Fold.W5_main_v4 m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq,
      Cert.ReferenceIdeal.RefValue.result_eq _ _ _ _ _ Cert.ReferenceIdeal.Gen.shapeCasts_S4x2048x2048_S8192x2048
        Cert.KernelIdeal.Gen.shapeCasts_S2048_S1x2048 Cert.ReferenceIdeal.Gen.shapeCasts_S8192x2048_S4x2048x2048,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
